-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v54)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S_ : Shape := ⟨0, ![]⟩

class Facts : Prop where
  bcast_S_S6040x128 : S_.BroadcastsInDim S6040x128 (![] : Fin 0 → Fin S6040x128.rank)
  reducesTo_S6040x128_S_d0_1 : S6040x128.ReducesTo [0, 1] S_
  h_S_ : 0 < S_.numel
  bcast_S_S3883x128 : S_.BroadcastsInDim S3883x128 (![] : Fin 0 → Fin S3883x128.rank)
  reducesTo_S3883x128_S_d0_1 : S3883x128.ReducesTo [0, 1] S_
  bcast_S_S1x9923 : S_.BroadcastsInDim S1x9923 (![] : Fin 0 → Fin S1x9923.rank)
  reducesTo_S1x9923_S_d0_1 : S1x9923.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_

variable [Facts]

def fn_part2 {F : FTy → Type} [FloatOps F] (main_arg8 : FVec F S64 .f32) (main_arg9 : FVec F S1x64 .f32) (main_arg10 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1x64 .f32 := Host.absf main_arg9
  let main_cst_14 : FVec F S_ .f32 := constant S_ .f32 0x7F800000#32
  let main_v40 : FVec F S1x64 .f32 := broadcastInDim S1x64 ![] bcast_S_S1x64 main_cst_14
  let main_v41 : IVec S1x64 1 := cmpf .olt main_v39 main_v40
  let main_c_15 : IVec S_ 1 := constantI S_ 1 1#1
  let main_v42 : IVec S_ 1 := (fun x v => Host.reduce IntOp.andi x v reducesTo_S1x64_S_d0_1 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg5 : FVec F S128x256 .f32) (main_arg6 : FVec F S128 .f32) (main_arg7 : FVec F S64x128 .f32) (main_arg8 : FVec F S64 .f32) (main_arg9 : FVec F S1x64 .f32) (main_arg10 : FVec F S1 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S64x128 .f32 := Host.absf main_arg7
  let main_cst_10 : FVec F S_ .f32 := constant S_ .f32 0x7F800000#32
  let main_v30 : FVec F S64x128 .f32 := broadcastInDim S64x128 ![] bcast_S_S64x128 main_cst_10
  let main_v31 : IVec S64x128 1 := cmpf .olt main_v29 main_v30
  let main_c_11 : IVec S_ 1 := constantI S_ 1 1#1
  let main_v32 : IVec S_ 1 := (fun x v => Host.reduce IntOp.andi x v reducesTo_S64x128_S_d0_1 h_S_) main_v31 main_c_11
  let main_v33 : IVec S_ 1 := andi main_v28 main_v32
  fn_part2 (F := F) main_arg8 main_arg9 main_arg10 main_v33

def fn {F : FTy → Type} [FloatOps F] (main_arg0 : IVec S131072x2 32) (main_arg1 : FVec F S6040x128 .f32) (main_arg2 : FVec F S3883x128 .f32) (main_arg3 : FVec F S1x9923 .f32) (main_arg4 : FVec F S1 .f32) (main_arg5 : FVec F S128x256 .f32) (main_arg6 : FVec F S128 .f32) (main_arg7 : FVec F S64x128 .f32) (main_arg8 : FVec F S64 .f32) (main_arg9 : FVec F S1x64 .f32) (main_arg10 : FVec F S1 .f32) : IVec S_ 1 :=
  let main_v0 : FVec F S6040x128 .f32 := Host.absf main_arg1
  let main_cst : FVec F S_ .f32 := constant S_ .f32 0x7F800000#32
  let main_v1 : FVec F S6040x128 .f32 := broadcastInDim S6040x128 ![] bcast_S_S6040x128 main_cst
  let main_v2 : IVec S6040x128 1 := cmpf .olt main_v0 main_v1
  let main_c : IVec S_ 1 := constantI S_ 1 1#1
  let main_v3 : IVec S_ 1 := (fun x v => Host.reduce IntOp.andi x v reducesTo_S6040x128_S_d0_1 h_S_) main_v2 main_c
  let main_v4 : FVec F S3883x128 .f32 := Host.absf main_arg2
  let main_cst_0 : FVec F S_ .f32 := constant S_ .f32 0x7F800000#32
  let main_v5 : FVec F S3883x128 .f32 := broadcastInDim S3883x128 ![] bcast_S_S3883x128 main_cst_0
  let main_v6 : IVec S3883x128 1 := cmpf .olt main_v4 main_v5
  let main_c_1 : IVec S_ 1 := constantI S_ 1 1#1
  let main_v7 : IVec S_ 1 := (fun x v => Host.reduce IntOp.andi x v reducesTo_S3883x128_S_d0_1 h_S_) main_v6 main_c_1
  let main_v8 : IVec S_ 1 := andi main_v3 main_v7
  let main_v9 : FVec F S1x9923 .f32 := Host.absf main_arg3
  let main_cst_2 : FVec F S_ .f32 := constant S_ .f32 0x7F800000#32
  let main_v10 : FVec F S1x9923 .f32 := broadcastInDim S1x9923 ![] bcast_S_S1x9923 main_cst_2
  let main_v11 : IVec S1x9923 1 := cmpf .olt main_v9 main_v10
  let main_c_3 : IVec S_ 1 := constantI S_ 1 1#1
  let main_v12 : IVec S_ 1 := (fun x v => Host.reduce IntOp.andi x v reducesTo_S1x9923_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_v13 main_v16
-- ==== Kernel.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S131072x1 : Shape := ⟨2, ![131072, 1]⟩
abbrev S131072 : Shape := ⟨1, ![131072]⟩
abbrev S_ : Shape := ⟨0, ![]⟩
abbrev S131072x128 : Shape := ⟨2, ![131072, 128]⟩
abbrev S131072x256 : Shape := ⟨2, ![131072, 256]⟩
abbrev S256x128 : Shape := ⟨2, ![256, 128]⟩
abbrev S128x64 : Shape := ⟨2, ![128, 64]⟩
abbrev S64x1 : Shape := ⟨2, ![64, 1]⟩
abbrev S1x128 : Shape := ⟨2, ![1, 128]⟩
abbrev S1x1 : Shape := ⟨2, ![1, 1]⟩
abbrev S2048x256 : Shape := ⟨2, ![2048, 256]⟩
abbrev S2048x1 : Shape := ⟨2, ![2048, 1]⟩
abbrev S2048x2 : Shape := ⟨2, ![2048, 2]⟩
abbrev S2048x128 : Shape := ⟨2, ![2048, 128]⟩
abbrev S2048x64 : Shape := ⟨2, ![2048, 64]⟩

abbrev nBuf : Space → Nat
  | .hbm => 77
  | .vmem => 12
  | .smem => 0
  | _ => 0

abbrev bufTy : (tb : Table) → Fin (tcTables nBuf tb) → BufTy
  | .hbm, ⟨0, _⟩ => ⟨S131072x2, .i32⟩
  | .hbm, ⟨1, _⟩ => ⟨S6040x128, .f32⟩
  | .hbm, ⟨2, _⟩ => ⟨S3883x128, .f32⟩
  | .hbm, ⟨3, _⟩ => ⟨S1x9923, .f32⟩
  | .hbm, ⟨4, _⟩ => ⟨S1, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S131072x1, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x128, .f32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x128, .f32⟩
  | .hbm, ⟨33, _⟩ => ⟨S131072x256, .f32⟩
  | .hbm, ⟨34, _⟩ => ⟨S_, .i32⟩
  | .hbm, ⟨35, _⟩ => ⟨S131072, .i32⟩
  | .hbm, ⟨36, _⟩ => ⟨S131072, .i1⟩
  | .hbm, ⟨37, _⟩ => ⟨S_, .i32⟩
  | .hbm, ⟨38, _⟩ => ⟨S131072, .i32⟩
  | .hbm, ⟨39, _⟩ => ⟨S131072, .i32⟩
  | .hbm, ⟨40, _⟩ => ⟨S131072, .i32⟩
  | .hbm, ⟨41, _⟩ => ⟨S_, .i32⟩
  | .hbm, ⟨42, _⟩ => ⟨S131072, .i32⟩
  | .hbm, ⟨43, _⟩ => ⟨S131072, .i32⟩
  | .hbm, ⟨44, _⟩ => ⟨S131072x1, .i32⟩
  | .hbm, ⟨45, _⟩ => ⟨S131072x1, .i32⟩
  | .hbm, ⟨46, _⟩ => ⟨S131072x2, .i32⟩
  | .hbm, ⟨47, _⟩ => ⟨S131072, .f32⟩
  | .hbm, ⟨48, _⟩ => ⟨S_, .i32⟩
  | .hbm, ⟨49, _⟩ => ⟨S131072, .i32⟩
  | .hbm, ⟨50, _⟩ => ⟨S131072, .i32⟩
  | .hbm, ⟨51, _⟩ => ⟨S_, .i32⟩
  | .hbm, ⟨52, _⟩ => ⟨S131072, .i32⟩
  | .hbm, ⟨53, _⟩ => ⟨S131072, .i1⟩
  | .hbm, ⟨54, _⟩ => ⟨S_, .i32⟩
  | .hbm, ⟨55, _⟩ => ⟨S131072, .i32⟩
  | .hbm, ⟨56, _⟩ => ⟨S131072, .i32⟩
  | .hbm, ⟨57, _⟩ => ⟨S131072, .i32⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072x1, .i32⟩
  | .hbm, ⟨62, _⟩ => ⟨S131072x1, .i32⟩
  | .hbm, ⟨63, _⟩ => ⟨S131072x2, .i32⟩
  | .hbm, ⟨64, _⟩ => ⟨S131072, .f32⟩
  | .hbm, ⟨65, _⟩ => ⟨S131072, .f32⟩
  | .hbm, ⟨66, _⟩ => ⟨S_, .f32⟩
  | .hbm, ⟨67, _⟩ => ⟨S131072, .f32⟩
  | .hbm, ⟨68, _⟩ => ⟨S131072, .f32⟩
  | .hbm, ⟨69, _⟩ => ⟨S131072x1, .f32⟩
  | .hbm, ⟨70, _⟩ => ⟨S256x128, .f32⟩
  | .hbm, ⟨71, _⟩ => ⟨S128x64, .f32⟩
  | .hbm, ⟨72, _⟩ => ⟨S64x1, .f32⟩
  | .hbm, ⟨73, _⟩ => ⟨S1x128, .f32⟩
  | .hbm, ⟨74, _⟩ => ⟨S1x64, .f32⟩
  | .hbm, ⟨75, _⟩ => ⟨S1x1, .f32⟩
  | .hbm, ⟨76, _⟩ => ⟨S131072x2, .f32⟩
  | .local _ .vmem, ⟨0, _⟩ => ⟨S2048x256, .f32⟩
  | .local _ .vmem, ⟨1, _⟩ => ⟨S2048x256, .f32⟩
  | .local _ .vmem, ⟨2, _⟩ => ⟨S2048x1, .f32⟩
  | .local _ .vmem, ⟨3, _⟩ => ⟨S2048x1, .f32⟩
  | .local _ .vmem, ⟨4, _⟩ => ⟨S256x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S64x1, .f32⟩
  | .local _ .vmem, ⟨9, _⟩ => ⟨S1x1, .f32⟩
  | .local _ .vmem, ⟨10, _⟩ => ⟨S2048x2, .f32⟩
  | .local _ .vmem, ⟨11, _⟩ => ⟨S2048x2, .f32⟩
  | _, _ => ⟨S131072x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_c_4 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_c_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S2048x2 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  concatenates_S131072x1_S131072x1_S131072x2_d1 : Shape.Concatenates [S131072x1, S131072x1] S131072x2 1
  shapeCasts_S1_S_ : S1.ShapeCasts S_
  transposes_S128x256_S256x128_1_0 : S128x256.Transposes [1, 0] S256x128
  transposes_S64x128_S128x64_1_0 : S64x128.Transposes [1, 0] S128x64
  transposes_S1x64_S64x1_1_0 : S1x64.Transposes [1, 0] S64x1
  shapeCasts_S128_S1x128 : S128.ShapeCasts S1x128
  shapeCasts_S64_S1x64 : S64.ShapeCasts S1x64
  shapeCasts_S1_S1x1 : S1.ShapeCasts S1x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  concatenates_S2048x1_S2048x1_S2048x2_d1 : Shape.Concatenates [S2048x1, S2048x1] S2048x2 1
  inb_S2048x2_S2048x2_0_0 : ∀ a, (![0, 0] : Fin 2 → Nat) a + S2048x2.size a ≤ S2048x2.size a
  h_S2048x2 : 0 < S2048x2.numel
  gather_S6040x128_S131072x1_S131072x128_1_0_n_n_0_1_1128_wf : GatherDims.WF S6040x128 S131072x1 S131072x128 [1] [0] [] [0] [] 1 ![1, 128]
  gather_S3883x128_S131072x1_S131072x128_1_0_n_n_0_1_1128_wf : GatherDims.WF S3883x128 S131072x1 S131072x128 [1] [0] [] [0] [] 1 ![1, 128]
  gather_S1x9923_S131072x2_S131072_n_01_n_n_01_1_11_wf : GatherDims.WF S1x9923 S131072x2 S131072 [] [0, 1] [] [0, 1] [] 1 ![1, 1]
  dot_S2048x256_S256x128_S2048x128_1_0_0_1_n_n_wf : DotDims.WF S2048x256 S256x128 S2048x128 [1] [0] [0] [1] [] []
  dot_S2048x128_S128x64_S2048x64_1_0_0_1_n_n_wf : DotDims.WF S2048x128 S128x64 S2048x64 [1] [0] [0] [1] [] []
  dot_S2048x64_S64x1_S2048x1_1_0_0_1_n_n_wf : DotDims.WF S2048x64 S64x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1.size a ≤ S131072x1.size a
  hwx0_1 : ∀ i : grid0.Coords, EltTy.bits .f32 = 32 ∨ (Rect.block (s := S131072x1) S2048x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S256x128.size a
  hwx0_2 : ∀ i : grid0.Coords, EltTy.bits .f32 = 32 ∨ (Rect.block (s := S256x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x1.size a ≤ S64x1.size a
  hwx0_6 : ∀ i : grid0.Coords, EltTy.bits .f32 = 32 ∨ (Rect.block (s := S64x1) S64x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2048x2.size a ≤ S131072x2.size a
  hwx0_8 : ∀ i : grid0.Coords, EltTy.bits .f32 = 32 ∨ (Rect.block (s := S131072x2) S2048x2.size (cc0_transform_8 i) (hinb0_8 i)).WholeWords (EltTy.packing .f32)

variable [Facts₀]

def gather_S6040x128_S131072x1_S131072x128_1_0_n_n_0_1_1128 : GatherDims S6040x128 S131072x1 S131072x128 where
  offsetDims := [1]
  collapsedSliceDims := [0]
  operandBatchingDims := []
  startIndicesBatchingDims := []
  startIndexMap := [0]
  indexVectorDim := 1
  sliceSizes := ![1, 128]
  wf := gather_S6040x128_S131072x1_S131072x128_1_0_n_n_0_1_1128_wf
def gather_S3883x128_S131072x1_S131072x128_1_0_n_n_0_1_1128 : GatherDims S3883x128 S131072x1 S131072x128 where
  offsetDims := [1]
  collapsedSliceDims := [0]
  operandBatchingDims := []
  startIndicesBatchingDims := []
  startIndexMap := [0]
  indexVectorDim := 1
  sliceSizes := ![1, 128]
  wf := gather_S3883x128_S131072x1_S131072x128_1_0_n_n_0_1_1128_wf
def gather_S1x9923_S131072x2_S131072_n_01_n_n_01_1_11 : GatherDims S1x9923 S131072x2 S131072 where
  offsetDims := []
  collapsedSliceDims := [0, 1]
  operandBatchingDims := []
  startIndicesBatchingDims := []
  startIndexMap := [0, 1]
  indexVectorDim := 1
  sliceSizes := ![1, 1]
  wf := gather_S1x9923_S131072x2_S131072_n_01_n_n_01_1_11_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf
def dot_S2048x128_S128x64_S2048x64_1_0_0_1_n_n : DotDims S2048x128 S128x64 S2048x64 where
  lhsContracting := [1]
  rhsContracting := [0]
  lhsNonContracting := [0]
  rhsNonContracting := [1]
  lhsBatch := []
  rhsBatch := []
  wf := dot_S2048x128_S128x64_S2048x64_1_0_0_1_n_n_wf
def dot_S2048x64_S64x1_S2048x1_1_0_0_1_n_n : DotDims S2048x64 S64x1 S2048x1 where
  lhsContracting := [1]
  rhsContracting := [0]
  lhsNonContracting := [0]
  rhsNonContracting := [1]
  lhsBatch := []
  rhsBatch := []
  wf := dot_S2048x64_S64x1_S2048x1_1_0_0_1_n_n_wf

abbrev win0_0 : Pipeline.Window sig grid0 :=
  Pipeline.Window.ofSpec (Memref.whole main_v18) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v47) S2048x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v48) S256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v51) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v49) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v52) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v50) S64x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v53) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v54) S2048x2.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S131072x2 : Shape := ⟨2, ![131072, 2]⟩
abbrev S6040x128 : Shape := ⟨2, ![6040, 128]⟩
abbrev S3883x128 : Shape := ⟨2, ![3883, 128]⟩
abbrev S1x9923 : Shape := ⟨2, ![1, 9923]⟩
abbrev S1 : Shape := ⟨1, ![1]⟩
abbrev S128x256 : Shape := ⟨2, ![128, 256]⟩
abbrev S128 : Shape := ⟨1, ![128]⟩
abbrev S64x128 : Shape := ⟨2, ![64, 128]⟩
abbrev S64 : Shape := ⟨1, ![64]⟩
abbrev S1x64 : Shape := ⟨2, ![1, 64]⟩
abbrev S131072x1 : Shape := ⟨2, ![131072, 1]⟩
abbrev S131072 : Shape := ⟨1, ![131072]⟩
abbrev S_ : Shape := ⟨0, ![]⟩
abbrev S131072x128 : Shape := ⟨2, ![131072, 128]⟩
abbrev S131072x256 : Shape := ⟨2, ![131072, 256]⟩
abbrev S256x128 : Shape := ⟨2, ![256, 128]⟩
abbrev S1x128 : Shape := ⟨2, ![1, 128]⟩
abbrev S128x64 : Shape := ⟨2, ![128, 64]⟩
abbrev S131072x64 : Shape := ⟨2, ![131072, 64]⟩
abbrev S64x1 : Shape := ⟨2, ![64, 1]⟩
abbrev S1x1 : Shape := ⟨2, ![1, 1]⟩

abbrev nBuf : Space → Nat
  | .hbm => 107
  | .vmem => 0
  | .smem => 0
  | _ => 0

abbrev bufTy : (tb : Table) → Fin (tcTables nBuf tb) → BufTy
  | .hbm, ⟨0, _⟩ => ⟨S131072x2, .i32⟩
  | .hbm, ⟨1, _⟩ => ⟨S6040x128, .f32⟩
  | .hbm, ⟨2, _⟩ => ⟨S3883x128, .f32⟩
  | .hbm, ⟨3, _⟩ => ⟨S1x9923, .f32⟩
  | .hbm, ⟨4, _⟩ => ⟨S1, .f32⟩
  | .hbm, ⟨5, _⟩ => ⟨S128x256, .f32⟩
  | .hbm, ⟨6, _⟩ => ⟨S128, .f32⟩
  | .hbm, ⟨7, _⟩ => ⟨S64x128, .f32⟩
  | .hbm, ⟨8, _⟩ => ⟨S64, .f32⟩
  | .hbm, ⟨9, _⟩ => ⟨S1x64, .f32⟩
  | .hbm, ⟨10, _⟩ => ⟨S1, .f32⟩
  | .hbm, ⟨11, _⟩ => ⟨S131072x1, .i32⟩
  | .hbm, ⟨12, _⟩ => ⟨S131072, .i32⟩
  | .hbm, ⟨13, _⟩ => ⟨S131072x1, .i32⟩
  | .hbm, ⟨14, _⟩ => ⟨S131072, .i32⟩
  | .hbm, ⟨15, _⟩ => ⟨S_, .i32⟩
  | .hbm, ⟨16, _⟩ => ⟨S131072, .i32⟩
  | .hbm, ⟨17, _⟩ => ⟨S131072, .i1⟩
  | .hbm, ⟨18, _⟩ => ⟨S_, .i32⟩
  | .hbm, ⟨19, _⟩ => ⟨S131072, .i32⟩
  | .hbm, ⟨20, _⟩ => ⟨S131072, .i32⟩
  | .hbm, ⟨21, _⟩ => ⟨S131072, .i32⟩
  | .hbm, ⟨22, _⟩ => ⟨S131072x1, .i32⟩
  | .hbm, ⟨23, _⟩ => ⟨S131072x128, .f32⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x128, .f32⟩
  | .hbm, ⟨33, _⟩ => ⟨S131072x256, .f32⟩
  | .hbm, ⟨34, _⟩ => ⟨S256x128, .f32⟩
  | .hbm, ⟨35, _⟩ => ⟨S131072x128, .f32⟩
  | .hbm, ⟨36, _⟩ => ⟨S1x128, .f32⟩
  | .hbm, ⟨37, _⟩ => ⟨S131072x128, .f32⟩
  | .hbm, ⟨38, _⟩ => ⟨S131072x128, .f32⟩
  | .hbm, ⟨39, _⟩ => ⟨S_, .f32⟩
  | .hbm, ⟨40, _⟩ => ⟨S131072x128, .f32⟩
  | .hbm, ⟨41, _⟩ => ⟨S131072x128, .f32⟩
  | .hbm, ⟨42, _⟩ => ⟨S128x64, .f32⟩
  | .hbm, ⟨43, _⟩ => ⟨S131072x64, .f32⟩
  | .hbm, ⟨44, _⟩ => ⟨S1x64, .f32⟩
  | .hbm, ⟨45, _⟩ => ⟨S131072x64, .f32⟩
  | .hbm, ⟨46, _⟩ => ⟨S131072x64, .f32⟩
  | .hbm, ⟨47, _⟩ => ⟨S_, .f32⟩
  | .hbm, ⟨48, _⟩ => ⟨S131072x64, .f32⟩
  | .hbm, ⟨49, _⟩ => ⟨S131072x64, .f32⟩
  | .hbm, ⟨50, _⟩ => ⟨S64x1, .f32⟩
  | .hbm, ⟨51, _⟩ => ⟨S131072x1, .f32⟩
  | .hbm, ⟨52, _⟩ => ⟨S1x1, .f32⟩
  | .hbm, ⟨53, _⟩ => ⟨S131072x1, .f32⟩
  | .hbm, ⟨54, _⟩ => ⟨S131072x1, .f32⟩
  | .hbm, ⟨55, _⟩ => ⟨S_, .i32⟩
  | .hbm, ⟨56, _⟩ => ⟨S131072, .i32⟩
  | .hbm, ⟨57, _⟩ => ⟨S131072, .i1⟩
  | .hbm, ⟨58, _⟩ => ⟨S_, .i32⟩
  | .hbm, ⟨59, _⟩ => ⟨S131072, .i32⟩
  | .hbm, ⟨60, _⟩ => ⟨S131072, .i32⟩
  | .hbm, ⟨61, _⟩ => ⟨S131072, .i32⟩
  | .hbm, ⟨62, _⟩ => ⟨S_, .i32⟩
  | .hbm, ⟨63, _⟩ => ⟨S131072, .i32⟩
  | .hbm, ⟨64, _⟩ => ⟨S131072, .i32⟩
  | .hbm, ⟨65, _⟩ => ⟨S131072x1, .i32⟩
  | .hbm, ⟨66, _⟩ => ⟨S131072x1, .i32⟩
  | .hbm, ⟨67, _⟩ => ⟨S131072x2, .i32⟩
  | .hbm, ⟨68, _⟩ => ⟨S131072, .f32⟩
  | .hbm, ⟨69, _⟩ => ⟨S_, .i32⟩
  | .hbm, ⟨70, _⟩ => ⟨S131072, .i32⟩
  | .hbm, ⟨71, _⟩ => ⟨S131072, .i32⟩
  | .hbm, ⟨72, _⟩ => ⟨S_, .i32⟩
  | .hbm, ⟨73, _⟩ => ⟨S131072, .i32⟩
  | .hbm, ⟨74, _⟩ => ⟨S131072, .i1⟩
  | .hbm, ⟨75, _⟩ => ⟨S_, .i32⟩
  | .hbm, ⟨76, _⟩ => ⟨S131072, .i32⟩
  | .hbm, ⟨77, _⟩ => ⟨S131072, .i32⟩
  | .hbm, ⟨78, _⟩ => ⟨S131072, .i32⟩
  | .hbm, ⟨79, _⟩ => ⟨S_, .i32⟩
  | .hbm, ⟨80, _⟩ => ⟨S131072, .i32⟩
  | .hbm, ⟨81, _⟩ => ⟨S131072, .i32⟩
  | .hbm, ⟨82, _⟩ => ⟨S131072x1, .i32⟩
  | .hbm, ⟨83, _⟩ => ⟨S131072x1, .i32⟩
  | .hbm, ⟨84, _⟩ => ⟨S131072x2, .i32⟩
  | .hbm, ⟨85, _⟩ => ⟨S131072, .f32⟩
  | .hbm, ⟨86, _⟩ => ⟨S131072, .f32⟩
  | .hbm, ⟨87, _⟩ => ⟨S_, .f32⟩
  | .hbm, ⟨88, _⟩ => ⟨S131072, .f32⟩
  | .hbm, ⟨89, _⟩ => ⟨S131072, .f32⟩
  | .hbm, ⟨90, _⟩ => ⟨S131072x1, .f32⟩
  | .hbm, ⟨91, _⟩ => ⟨S131072x1, .f32⟩
  | .hbm, ⟨92, _⟩ => ⟨S_, .f32⟩
  | .hbm, ⟨93, _⟩ => ⟨S131072x1, .f32⟩
  | .hbm, ⟨94, _⟩ => ⟨S131072x1, .f32⟩
  | .hbm, ⟨95, _⟩ => ⟨S131072x1, .f32⟩
  | .hbm, ⟨96, _⟩ => ⟨S131072x1, .f32⟩
  | .hbm, ⟨97, _⟩ => ⟨S_, .f32⟩
  | .hbm, ⟨98, _⟩ => ⟨S131072x1, .f32⟩
  | .hbm, ⟨99, _⟩ => ⟨S131072x1, .f32⟩
  | .hbm, ⟨100, _⟩ => ⟨S_, .f32⟩
  | .hbm, ⟨101, _⟩ => ⟨S131072x1, .f32⟩
  | .hbm, ⟨102, _⟩ => ⟨S131072x1, .f32⟩
  | .hbm, ⟨103, _⟩ => ⟨S_, .f32⟩
  | .hbm, ⟨104, _⟩ => ⟨S131072x1, .f32⟩
  | .hbm, ⟨105, _⟩ => ⟨S131072x1, .f32⟩
  | .hbm, ⟨106, _⟩ => ⟨S131072x2, .f32⟩
  | _, _ => ⟨S131072x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_call1_cst : Ref sig .tc := ⟨.hbm, 47, rfl⟩
abbrev main_call1_v0 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_c_3 : Ref sig .tc := ⟨.hbm, 55, rfl⟩
abbrev main_v36 : Ref sig .tc := ⟨.hbm, 56, rfl⟩
abbrev main_v37 : Ref sig .tc := ⟨.hbm, 57, rfl⟩
abbrev main_c_4 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_c_5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_c_6 : Ref sig .tc := ⟨.hbm, 69, rfl⟩
abbrev main_v47 : Ref sig .tc := ⟨.hbm, 70, rfl⟩
abbrev main_v48 : Ref sig .tc := ⟨.hbm, 71, rfl⟩
abbrev main_c_7 : Ref sig .tc := ⟨.hbm, 72, rfl⟩
abbrev main_v49 : Ref sig .tc := ⟨.hbm, 73, rfl⟩
abbrev main_v50 : Ref sig .tc := ⟨.hbm, 74, rfl⟩
abbrev main_c_8 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_c_9 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_cst_12 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩

abbrev nD : Nat := 1
abbrev τ : Topo := Topo.v7x

variable {F : FTy → Type} [FloatOps F]

class Facts₀ : Prop where
  slices_S131072x2_S131072x1_0_0 : S131072x2.Slices ![0, 0] S131072x1
  shapeCasts_S131072x1_S131072 : S131072x1.ShapeCasts S131072
  slices_S131072x2_S131072x1_0_1 : S131072x2.Slices ![0, 1] S131072x1
  bcast_S_S131072 : S_.BroadcastsInDim S131072 (![] : Fin 0 → Fin S131072.rank)
  bcast_S131072_S131072x1_0 : S131072.BroadcastsInDim S131072x1 (![0] : Fin 1 → Fin S131072x1.rank)
  concatenates_S131072x128_S131072x128_S131072x256_d1 : Shape.Concatenates [S131072x128, S131072x128] S131072x256 1
  transposes_S128x256_S256x128_1_0 : S128x256.Transposes [1, 0] S256x128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  transposes_S64x128_S128x64_1_0 : S64x128.Transposes [1, 0] S128x64
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  transposes_S1x64_S64x1_1_0 : S1x64.Transposes [1, 0] S64x1
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  concatenates_S131072x1_S131072x1_S131072x2_d1 : Shape.Concatenates [S131072x1, S131072x1] S131072x2 1
  shapeCasts_S1_S_ : S1.ShapeCasts S_
  bcast_S_S131072x1 : S_.BroadcastsInDim S131072x1 (![] : Fin 0 → Fin S131072x1.rank)
  gather_S6040x128_S131072x1_S131072x128_1_0_n_n_0_1_1128_wf : GatherDims.WF S6040x128 S131072x1 S131072x128 [1] [0] [] [0] [] 1 ![1, 128]
  gather_S3883x128_S131072x1_S131072x128_1_0_n_n_0_1_1128_wf : GatherDims.WF S3883x128 S131072x1 S131072x128 [1] [0] [] [0] [] 1 ![1, 128]
  dot_S131072x256_S256x128_S131072x128_1_0_0_1_n_n_wf : DotDims.WF S131072x256 S256x128 S131072x128 [1] [0] [0] [1] [] []
  dot_S131072x128_S128x64_S131072x64_1_0_0_1_n_n_wf : DotDims.WF S131072x128 S128x64 S131072x64 [1] [0] [0] [1] [] []
  dot_S131072x64_S64x1_S131072x1_1_0_0_1_n_n_wf : DotDims.WF S131072x64 S64x1 S131072x1 [1] [0] [0] [1] [] []
  gather_S1x9923_S131072x2_S131072_n_01_n_n_01_1_11_wf : GatherDims.WF S1x9923 S131072x2 S131072 [] [0, 1] [] [0, 1] [] 1 ![1, 1]

variable [Facts₀]

def gather_S6040x128_S131072x1_S131072x128_1_0_n_n_0_1_1128 : GatherDims S6040x128 S131072x1 S131072x128 where
  offsetDims := [1]
  collapsedSliceDims := [0]
  operandBatchingDims := []
  startIndicesBatchingDims := []
  startIndexMap := [0]
  indexVectorDim := 1
  sliceSizes := ![1, 128]
  wf := gather_S6040x128_S131072x1_S131072x128_1_0_n_n_0_1_1128_wf
def gather_S3883x128_S131072x1_S131072x128_1_0_n_n_0_1_1128 : GatherDims S3883x128 S131072x1 S131072x128 where
  offsetDims := [1]
  collapsedSliceDims := [0]
  operandBatchingDims := []
  startIndicesBatchingDims := []
  startIndexMap := [0]
  indexVectorDim := 1
  sliceSizes := ![1, 128]
  wf := gather_S3883x128_S131072x1_S131072x128_1_0_n_n_0_1_1128_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf
def gather_S1x9923_S131072x2_S131072_n_01_n_n_01_1_11 : GatherDims S1x9923 S131072x2 S131072 where
  offsetDims := []
  collapsedSliceDims := [0, 1]
  operandBatchingDims := []
  startIndicesBatchingDims := []
  startIndexMap := [0, 1]
  indexVectorDim := 1
  sliceSizes := ![1, 1]
  wf := gather_S1x9923_S131072x2_S131072_n_01_n_n_01_1_11_wf

class Facts : Prop extends Facts₀ where

variable [Facts]
-- ==== Proof.LibDot.lean ====
/-
  Matrix products with ONE contracted axis and no batch axis, read at an entry at the ideal values, for any dimension
  numbers record whose axis lists are the stated ones (a printed record satisfies each hypothesis by `rfl`).

  With the accumulator the zero constant, the product at entry (a, b) is the sum over the contracted coordinate `c` of
  the left operand's entry times the right operand's entry; which coordinate of each operand `c` runs over is what the
  three forms below differ in: rows by columns (`_10`), the left operand transposed against a right operand contracted
  on its last axis (`_01`), and both operands contracted on their first axis (`_00`).
  Also: a non-contracting axis of either operand reads the output index, and the bf16 zero pattern is the real zero.
-/
import Idealize.ShloMosaic.Lib.ValueIdx
import Idealize.ShloMosaic.PureOps.Ideal.Laws

noncomputable section

open scoped BigOperators

namespace Cert.LibDot

open Idealize.ShloMosaic Idealize.ShloMosaic.ValueIdx

/-- The bf16 pattern of all zero bits is the number zero. -/
theorem ofBits_zero_bf16 : Ideal.ofBits .bf16 0x0000#16 = 0 := by simp [Ideal.ofBits, Ideal.ieee]

section Axes
variable {sl sr so : Shape} (d : DotDims sl sr so)

/-- With no batch axis and one non-contracting axis on the left, that axis of the left operand reads the output's
    first coordinate. -/
theorem lhsIdx_val_non {nl : Fin sl.rank} (hb : d.lhsBatch = []) (hn : d.lhsNonContracting = [nl]) (j : so.Idx)
    (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- With no batch axis and one non-contracting axis on each side, the right operand's non-contracting axis reads the
    output's second coordinate. -/
theorem rhsIdx_val_non {nl : Fin sl.rank} {nr : Fin sr.rank} (hlb : d.lhsBatch = []) (hrb : d.rhsBatch = [])
    (hln : d.lhsNonContracting = [nl]) (hn : d.rhsNonContracting = [nr]) (j : so.Idx)
    (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hn]; exact List.mem_singleton.mpr rfl
  unfold DotDims.rhsIdx
  rw [dif_neg hnb, dif_pos hmem]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hlb, hln, hn])

end Axes

/-- Rows by columns: an `M × K` by a `K × N` operand, the left contracted on its last axis and the right on its
    first. -/
theorem matmul_10_zero_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![M, K]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 a c) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l0 := lhsIdx_val_non d hlb hln (ix2 a b) ((contrEquiv1 d K hr hs).symm c) Nat.zero_lt_two
  have l1 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 a c := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

/-- A `K × M` left operand contracted on its first axis against an `N × K` right operand contracted on its last. -/
theorem matmul_01_zero_apply {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (prec : Option ContractPrecision) (A : FVec Ideal ⟨2, ![K, M]⟩ φ₁) (B : FVec Ideal ⟨2, ![N, K]⟩ φ₂)
    (a : Fin M) (b : Fin N) :
    matmul (F := Ideal) d prec A B (constant ⟨2, ![M, N]⟩ .f32 0x00000000#32) (ix2 a b)
      = ∑ c : Fin K, A (ix2 c a) * B (ix2 b c) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r1 := (d.rhsIdx_val_of_single hrc (ix2 a b) ((contrEquiv1 d K hr hs).symm c)).trans c2
  have r0 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 b c := by
    funext ax; apply Fin.ext
    match ax with
    | ⟨0, _⟩ => exact r0
    | ⟨1, _⟩ => exact r1
  rw [l2, r2]

/-- Both operands contracted on their first axis: a `K × M` by a `K × N` operand. -/
theorem matmul_00_zero_apply {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (prec : Option ContractPrecision) (A : FVec Ideal ⟨2, ![K, M]⟩ φ₁) (B : FVec Ideal ⟨2, ![K, N]⟩ φ₂)
    (a : Fin M) (b : Fin N) :
    matmul (F := Ideal) d prec A B (constant ⟨2, ![M, N]⟩ .f32 0x00000000#32) (ix2 a b)
      = ∑ c : Fin K, A (ix2 c a) * B (ix2 c b) := by
  have hr : d.contr.rank = 1 := by rw [d.rank_contr, hlc]; rfl
  have hs : d.contr.size ⟨0, by omega⟩ = K := by
    rw [d.size_contr 0 (by rw [hlc]; exact Nat.one_pos)]; simp [hlc]
  show FloatOps.matmul _ prec A B _ (ix2 a b) = _
  rw [Ideal.matmul_constant_zero_apply, ← Equiv.sum_comp (contrEquiv1 d K hr hs).symm]
  refine Finset.sum_congr rfl fun c _ => ?_
  have c2 := contrEquiv1_symm_val d K hr hs c
  have l1 := lhsIdx_val_non d hlb hln (ix2 a b) ((contrEquiv1 d K hr hs).symm c) Nat.zero_lt_two
  have l0 := (d.lhsIdx_val_of_single hlc (ix2 a b) ((contrEquiv1 d K hr hs).symm c)).trans c2
  have r0 := (d.rhsIdx_val_of_single hrc (ix2 a b) ((contrEquiv1 d K hr hs).symm c)).trans c2
  have r1 := rhsIdx_val_non d hlb hrb hln hrn (ix2 a b) ((contrEquiv1 d K hr hs).symm c) Nat.one_lt_two
  have l2 : d.lhsIdx (ix2 a b) ((contrEquiv1 d K hr hs).symm c) = ix2 c a := by
    funext ax; apply Fin.ext
    match ax with
    | ⟨0, _⟩ => exact l0
    | ⟨1, _⟩ => exact l1
  have r2 : d.rhsIdx (ix2 a b) ((contrEquiv1 d K hr hs).symm c) = ix2 c b := by
    funext ax; apply Fin.ext
    match ax with
    | ⟨0, _⟩ => exact r0
    | ⟨1, _⟩ => exact r1
  rw [l2, r2]

end Cert.LibDot

end
-- ==== Proof.Spec.lean ====
/-
  The function both programs compute, row by row.

  A row of the result depends on one row `x` of the concatenated embeddings (256 numbers), on the wide term `w` of that
  row, and on the three dense layers: the first two are a matrix product, a bias and a maximum with zero,

      h₁ j = max (∑ₖ x k · W₁ (k, j) + B₁ (0, j)) 0,      h₂ j = max (∑ₖ h₁ k · W₂ (k, j) + B₂ (0, j)) 0,

  the third a product with a single column and a bias.  The logit is the wide term plus the deep term, the probability
  the logistic function of half the logit, and the two entries of the row are `1 - p` and `p`.

  All sums and products are those of the extended reals; the float constants are kept as their bit patterns, the same
  words on both sides.  Nothing here mentions a program.
-/
import Idealize.ShloMosaic.Lib.ValueIdx
import Idealize.ShloMosaic.PureOps.Ideal

noncomputable section

open scoped BigOperators

namespace Cert.WideDeep

open Idealize.ShloMosaic Idealize.ShloMosaic.ValueIdx

/-- An `n0 × n1` array of extended reals, indexed as the printed programs index theirs. -/
abbrev Arr (n0 n1 : Nat) : Type := (⟨2, ![n0, n1]⟩ : Shape).Idx → EReal

/-- The float zero, one half and one, as the words both programs carry. -/
abbrev zeroF : EReal := Ideal.ofBits .f32 0x00000000#32
abbrev halfF : EReal := Ideal.ofBits .f32 0x3F000000#32
abbrev oneF : EReal := Ideal.ofBits .f32 0x3F800000#32

/-- First hidden layer of a row `x`: unit `j` is the row times column `j` of the weights, plus the bias, cut at zero. -/
def hid1 (x : Fin 256 → EReal) (W1 : Arr 256 128) (B1 : Arr 1 128) (j : Fin 128) : EReal :=
  max ((∑ k : Fin 256, x k * W1 (ix2 k j)) + B1 (ix2 (0 : Fin 1) j)) zeroF

/-- Second hidden layer: the same over the first layer's 128 units. -/
def hid2 (x : Fin 256 → EReal) (W1 : Arr 256 128) (B1 : Arr 1 128) (W2 : Arr 128 64) (B2 : Arr 1 64) (j : Fin 64) : EReal :=
  max ((∑ k : Fin 128, hid1 x W1 B1 k * W2 (ix2 k j)) + B2 (ix2 (0 : Fin 1) j)) zeroF

/-- The row's logit: the wide term plus the deep network's one output (no cut on the last layer). -/
def logit (x : Fin 256 → EReal) (w : EReal) (W1 : Arr 256 128) (B1 : Arr 1 128) (W2 : Arr 128 64) (B2 : Arr 1 64)
    (W3 : Arr 64 1) (B3 : Arr 1 1) : EReal :=
  w + ((∑ k : Fin 64, hid2 x W1 B1 W2 B2 k * W3 (ix2 k (0 : Fin 1))) + B3 (ix2 (0 : Fin 1) (0 : Fin 1)))

/-- The positive class's probability: the logistic function of half the logit. -/
def prob (z : EReal) : EReal := Ideal.logistic (halfF * z)

/-- The row's two entries: column 0 holds `1 - p`, column 1 holds `p`. -/
def pair (p : EReal) (col : Fin 2) : EReal := if col.val = 0 then oneF - p else p

/-- The whole result: entry `(r, col)` from row `r` of the embeddings `D` and of the wide terms `Wd`. -/
def G (D : Arr 131072 256) (Wd : Arr 131072 1) (W1 : Arr 256 128) (B1 : Arr 1 128) (W2 : Arr 128 64) (B2 : Arr 1 64)
    (W3 : Arr 64 1) (B3 : Arr 1 1) : Arr 131072 2 := fun i =>
  pair (prob (logit (fun k => D (ix2 (i 0) k)) (Wd (ix2 (i 0) (0 : Fin 1))) W1 B1 W2 B2 W3 B3)) (i 1)

/-- The word of `1.0` is the number one. -/
theorem oneF_eq : oneF = 1 := by
  show Ideal.ofBits .f32 0x3F800000#32 = 1
  simp [Ideal.ofBits, Ideal.ieee, -EReal.coe_mul]; norm_num

/-- The logistic function spelled with the float one: `1 / (1 + e^(-x))`. -/
theorem logistic_spelled (x : EReal) : Ideal.div oneF (oneF + Ideal.exp (-x)) = Ideal.logistic x := by
  rw [oneF_eq]; rfl

end Cert.WideDeep

end
-- ==== Proof.Dense.lean ====
/-
  A dense layer of the kernel read at an entry, at the ideal values.

  The kernel's layer is a matrix product into the zero accumulator, a bias added to every row, and (for the hidden layers)
  a maximum with zero.  Read at entry (a, b) the product is the sum over the contracted coordinate; the bias, a one-row
  array stretched over all rows, is read at row 0.
-/
import proofs.«168874_j23029614641371_1_alg».proof.Proof.LibDot
import proofs.«168874_j23029614641371_1_alg».proof.Proof.Spec
import Idealize.ShloMosaic.Lib.Pipeline.Value

noncomputable section

open scoped BigOperators

namespace Cert.WideDeep

open Idealize.ShloMosaic Idealize.ShloMosaic.ValueIdx

/-- A one-row array stretched over `M` rows, read at `(a, b)`, is its entry `(0, b)`. -/
theorem bias_row_apply {M N : Nat} (P : (⟨2, ![1, N]⟩ : Shape).Idx → EReal)
    (h : (⟨2, ![1, N]⟩ : Shape).Broadcasts ⟨2, ![M, N]⟩) (a : Fin M) (b : Fin N) :
    broadcastTo ⟨2, ![M, N]⟩ P h (ix2 a b) = P (ix2 (0 : Fin 1) b) := by
  refine broadcastTo_apply P h (ix2 a b) (ix2 (0 : Fin 1) b) ?_
  intro ax
  match ax with
  | ⟨0, _⟩ => show (0 : Nat) = if (1 : Nat) = 1 then 0 else _; rw [if_pos rfl]
  | ⟨1, _⟩ =>
    show b.val = if N = 1 then 0 else b.val
    split_ifs with hN
    · have := b.isLt; omega
    · rfl

/-- Product into the zero accumulator plus a bias array, at an entry. -/
theorem dense_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![M, K]⟩ φ₁) (B : FVec Ideal ⟨2, ![K, N]⟩ φ₂) (bias : FVec Ideal ⟨2, ![M, N]⟩ .f32)
    (a : Fin M) (b : Fin N) :
    addf (matmul (F := Ideal) d none A B (constant ⟨2, ![M, N]⟩ .f32 0x00000000#32)) bias (ix2 a b)
      = (∑ c : Fin K, A (ix2 a c) * B (ix2 c b)) + bias (ix2 a b) := by
  show matmul (F := Ideal) d none A B (constant ⟨2, ![M, N]⟩ .f32 0x00000000#32) (ix2 a b) + bias (ix2 a b) = _
  rw [Cert.LibDot.matmul_10_zero_apply d hlc hrc hln hrn hlb hrb]

/-- The same cut at zero. -/
theorem dense_relu_apply {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![M, K]⟩ φ₁) (B : FVec Ideal ⟨2, ![K, N]⟩ φ₂) (bias : FVec Ideal ⟨2, ![M, N]⟩ .f32)
    (a : Fin M) (b : Fin N) :
    maximumf (addf (matmul (F := Ideal) d none A B (constant ⟨2, ![M, N]⟩ .f32 0x00000000#32)) bias)
        (broadcast ⟨2, ![M, N]⟩ (Scalar.ofBits (F := Ideal) .f32 0x00000000#32)) (ix2 a b)
      = max ((∑ c : Fin K, A (ix2 a c) * B (ix2 c b)) + bias (ix2 a b)) zeroF := by
  show max (addf (matmul (F := Ideal) d none A B (constant ⟨2, ![M, N]⟩ .f32 0x00000000#32)) bias (ix2 a b)) zeroF = _
  rw [dense_apply d hlc hrc hln hrn hlb hrb]

/-- First hidden layer of the kernel at `(y, j)`: the row `y` of the block through `hid1`. The casts to bf16 change
    nothing at the ideal values. -/
theorem layer1_apply (d1 : DotDims ⟨2, ![2048, 256]⟩ ⟨2, ![256, 128]⟩ ⟨2, ![2048, 128]⟩)
    (hlc : d1.lhsContracting = [1]) (hrc : d1.rhsContracting = [0]) (hln : d1.lhsNonContracting = [0])
    (hrn : d1.rhsNonContracting = [1]) (hlb : d1.lhsBatch = []) (hrb : d1.rhsBatch = [])
    (hb : (⟨2, ![1, 128]⟩ : Shape).Broadcasts ⟨2, ![2048, 128]⟩)
    (P0 : FVec Ideal ⟨2, ![2048, 256]⟩ .f32) (P1 : FVec Ideal ⟨2, ![256, 128]⟩ .f32) (P2 : FVec Ideal ⟨2, ![1, 128]⟩ .f32)
    (y : Fin 2048) (j : Fin 128) :
    maximumf (addf (matmul (F := Ideal) d1 none (truncf .bf16 P0) (truncf .bf16 P1)
          (constant ⟨2, ![2048, 128]⟩ .f32 0x00000000#32)) (broadcastTo ⟨2, ![2048, 128]⟩ P2 hb))
        (broadcast ⟨2, ![2048, 128]⟩ (Scalar.ofBits (F := Ideal) .f32 0x00000000#32)) (ix2 y j)
      = hid1 (fun k => P0 (ix2 y k)) P1 P2 j := by
  refine (dense_relu_apply d1 hlc hrc hln hrn hlb hrb _ _ _ y j).trans ?_
  unfold hid1
  rw [bias_row_apply]
  rfl

/-- Second hidden layer of the kernel at `(y, j)`, over any first-layer array `H1` whose row `y` is `h1`. -/
theorem layer2_apply (d2 : DotDims ⟨2, ![2048, 128]⟩ ⟨2, ![128, 64]⟩ ⟨2, ![2048, 64]⟩)
    (hlc : d2.lhsContracting = [1]) (hrc : d2.rhsContracting = [0]) (hln : d2.lhsNonContracting = [0])
    (hrn : d2.rhsNonContracting = [1]) (hlb : d2.lhsBatch = []) (hrb : d2.rhsBatch = [])
    (hb : (⟨2, ![1, 64]⟩ : Shape).Broadcasts ⟨2, ![2048, 64]⟩)
    (H1 : FVec Ideal ⟨2, ![2048, 128]⟩ .f32) (P3 : FVec Ideal ⟨2, ![128, 64]⟩ .f32) (P4 : FVec Ideal ⟨2, ![1, 64]⟩ .f32)
    (y : Fin 2048) (h1 : Fin 128 → EReal) (hH : ∀ k, H1 (ix2 y k) = h1 k) (j : Fin 64) :
    maximumf (addf (matmul (F := Ideal) d2 none (truncf .bf16 H1) (truncf .bf16 P3)
          (constant ⟨2, ![2048, 64]⟩ .f32 0x00000000#32)) (broadcastTo ⟨2, ![2048, 64]⟩ P4 hb))
        (broadcast ⟨2, ![2048, 64]⟩ (Scalar.ofBits (F := Ideal) .f32 0x00000000#32)) (ix2 y j)
      = max ((∑ k : Fin 128, h1 k * P3 (ix2 k j)) + P4 (ix2 (0 : Fin 1) j)) zeroF := by
  refine (dense_relu_apply d2 hlc hrc hln hrn hlb hrb _ _ _ y j).trans ?_
  rw [bias_row_apply]
  refine congrArg (fun s => max (s + P4 (ix2 (0 : Fin 1) j)) zeroF) (Finset.sum_congr rfl fun k _ => ?_)
  show H1 (ix2 y k) * P3 (ix2 k j) = _
  rw [hH k]

/-- The last layer and the wide term at row `y`, over any second-layer array `H2` whose row `y` is `h2`. -/
theorem layer3_apply (d3 : DotDims ⟨2, ![2048, 64]⟩ ⟨2, ![64, 1]⟩ ⟨2, ![2048, 1]⟩)
    (hlc : d3.lhsContracting = [1]) (hrc : d3.rhsContracting = [0]) (hln : d3.lhsNonContracting = [0])
    (hrn : d3.rhsNonContracting = [1]) (hlb : d3.lhsBatch = []) (hrb : d3.rhsBatch = [])
    (hb : (⟨2, ![1, 1]⟩ : Shape).Broadcasts ⟨2, ![2048, 1]⟩)
    (H2 : FVec Ideal ⟨2, ![2048, 64]⟩ .f32) (P5 : FVec Ideal ⟨2, ![64, 1]⟩ .f32) (P6 : FVec Ideal ⟨2, ![1, 1]⟩ .f32)
    (P7 : FVec Ideal ⟨2, ![2048, 1]⟩ .f32)
    (y : Fin 2048) (h2 : Fin 64 → EReal) (hH : ∀ k, H2 (ix2 y k) = h2 k) :
    addf P7 (addf (matmul (F := Ideal) d3 none (truncf .bf16 H2) (truncf .bf16 P5)
          (constant ⟨2, ![2048, 1]⟩ .f32 0x00000000#32)) (broadcastTo ⟨2, ![2048, 1]⟩ P6 hb)) (ix2 y (0 : Fin 1))
      = P7 (ix2 y (0 : Fin 1))
        + ((∑ k : Fin 64, h2 k * P5 (ix2 k (0 : Fin 1))) + P6 (ix2 (0 : Fin 1) (0 : Fin 1))) := by
  show P7 (ix2 y (0 : Fin 1)) + addf (matmul (F := Ideal) d3 none (truncf .bf16 H2) (truncf .bf16 P5)
          (constant ⟨2, ![2048, 1]⟩ .f32 0x00000000#32)) (broadcastTo ⟨2, ![2048, 1]⟩ P6 hb) (ix2 y (0 : Fin 1)) = _
  rw [dense_apply d3 hlc hrc hln hrn hlb hrb, bias_row_apply]
  refine congrArg (fun s => P7 (ix2 y (0 : Fin 1)) + (s + P6 (ix2 (0 : Fin 1) (0 : Fin 1)))) (Finset.sum_congr rfl fun k _ => ?_)
  show H2 (ix2 y k) * P5 (ix2 k (0 : Fin 1)) = _
  rw [hH k]

end Cert.WideDeep

end
-- ==== Proof.KernelRow.lean ====
/-
  The kernel's arithmetic at one row of a block, at the ideal values.

  The body adds the wide term of row `y` to the deep network's output for that row; every layer reads row `y` of the
  layer before it, so the value at `(y, 0)` is `logit` of row `y` of the embeddings' block and of the wide block.
-/
import proofs.«168874_j23029614641371_1_alg».proof.Proof.Gen.KernelIdeal.Skeleton
import proofs.«168874_j23029614641371_1_alg».proof.Proof.Dense

noncomputable section

open scoped BigOperators

namespace Cert.KernelIdeal.Row

open Cert.KernelIdeal Cert.KernelIdeal.Gen Cert.WideDeep Idealize.ShloMosaic Idealize.ShloMosaic.ValueIdx

/-- The sum the kernel feeds to the logistic function, at row `y`: the wide term plus the three layers of row `y`. -/
theorem pay2_apply (P0 : Vec Ideal S2048x256 .f32) (P1 : Vec Ideal S256x128 .f32) (P2 : Vec Ideal S1x128 .f32)
    (P3 : Vec Ideal S128x64 .f32) (P4 : Vec Ideal S1x64 .f32) (P5 : Vec Ideal S64x1 .f32) (P6 : Vec Ideal S1x1 .f32)
    (P7 : Vec Ideal S2048x1 .f32) (y : Fin 2048) :
    k0_pay2 (F := Ideal) P0 P1 P2 P3 P4 P5 P6 P7 (ix2 y (0 : Fin 1))
      = logit (fun k => P0 (ix2 y k)) (P7 (ix2 y (0 : Fin 1))) P1 P2 P3 P4 P5 P6 := by
  unfold k0_pay2
  simp only [shapeCast_self]
  refine (layer3_apply dot_S2048x64_S64x1_S2048x1_1_0_0_1_n_n rfl rfl rfl rfl rfl rfl _ _ P5 P6 P7 y
    (hid2 (fun k => P0 (ix2 y k)) P1 P2 P3 P4) (fun j => ?_)).trans rfl
  exact layer2_apply dot_S2048x128_S128x64_S2048x64_1_0_0_1_n_n rfl rfl rfl rfl rfl rfl _ _ P3 P4 y
    (hid1 (fun k => P0 (ix2 y k)) P1 P2)
    (fun k => layer1_apply dot_S2048x256_S256x128_S2048x128_1_0_0_1_n_n rfl rfl rfl rfl rfl rfl _ P0 P1 P2 y k) j

end Cert.KernelIdeal.Row

end
-- ==== Proof.KernelBlock.lean ====
/-
  From the kernel's blocks to its result array, at the ideal values.

  Grid point `t` works on rows `2048 t … 2048 t + 2047`: its block of the embeddings and of the wide terms are those rows,
  the weights and biases are whole at every point, and it writes back rows `2048 t …` of the result.  Row `y` of what
  it writes is the row function of row `2048 t + y`, so each written block is a block of ONE whole-array function `G`
  of the arrays the region finds; the 64 blocks tile the 131072 rows, so the result array ends holding `G`.
-/
import proofs.«168874_j23029614641371_1_alg».proof.Proof.Gen.KernelIdeal.Value
import proofs.«168874_j23029614641371_1_alg».proof.Proof.KernelRow

noncomputable section

open scoped BigOperators

namespace Cert.KernelIdeal.Block

open Cert.KernelIdeal Cert.KernelIdeal.Gen Cert.WideDeep Idealize.ShloMosaic Idealize.ShloMosaic.TcCoe Idealize.SL.Sem
  Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output block, entry by entry: row `j 0` of the input blocks through the row function,
    the two probabilities side by side. -/
theorem out_apply (x0 : Vec Ideal S2048x256 .f32) (x1 : Vec Ideal S2048x1 .f32) (x2 : Vec Ideal S256x128 .f32)
    (x3 : Vec Ideal S1x128 .f32) (x4 : Vec Ideal S128x64 .f32) (x5 : Vec Ideal S1x64 .f32) (x6 : Vec Ideal S64x1 .f32)
    (x7 : Vec Ideal S1x1 .f32) (j : S2048x2.Idx) :
    out0_8 x0 x1 x2 x3 x4 x5 x6 x7 j
      = pair (prob (logit (fun k => x0 (ix2 (j 0) k)) (x1 (ix2 (j 0) (0 : Fin 1))) x2 x3 x4 x5 x6 x7)) (j 1) := by
  obtain ⟨y, col, rfl⟩ : ∃ (y : Fin 2048) (col : Fin 2), j = ix2 y col := ⟨j 0, j 1, eq_ix2 j⟩
  unfold out0_8
  rw [Cert.KernelIdeal.Value.canon8_eq]
  simp only [View.ld_unit_zero (S := S2048x256) hz, View.ld_unit_zero (S := S256x128) hz,
    View.ld_unit_zero (S := S1x128) hz, View.ld_unit_zero (S := S128x64) hz, View.ld_unit_zero (S := S1x64) hz,
    View.ld_unit_zero (S := S64x1) hz, View.ld_unit_zero (S := S1x1) hz, View.ld_unit_zero (S := S2048x1) hz]
  have hi : Cert.KernelIdeal.Value.ix8_0 (ix2 y col) = ix2 y (0 : Fin 1) := funext fun a => by
    match a with | ⟨0, _⟩ => rfl | ⟨1, _⟩ => rfl
  show Cert.KernelIdeal.Value.Cat8_0 x0 x2 x3 x4 x5 x6 x7 x1 (Cert.KernelIdeal.Value.csel8_0 (ix2 y col))
      (Cert.KernelIdeal.Value.ix8_0 (ix2 y col)) = pair (prob (logit (fun k => x0 (ix2 y k)) (x1 (ix2 y (0 : Fin 1))) x2 x3 x4 x5 x6 x7)) col
  rw [hi, ← Cert.KernelIdeal.Row.pay2_apply]
  match col with
  | ⟨0, _⟩ => rfl
  | ⟨1, _⟩ => rfl

/-- The printed index maps over the grid: the row-blocked windows sit at block `t`, the others at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-- The arrays the region finds, under the names of the row function's arguments. -/
abbrev embArr (c : Dev nD) : Arr 131072 256 := V m c main_v18
abbrev wideArr (c : Dev nD) : Arr 131072 1 := V m c main_v47
abbrev w1Arr (c : Dev nD) : Arr 256 128 := V m c main_v48
abbrev b1Arr (c : Dev nD) : Arr 1 128 := V m c main_v51
abbrev w2Arr (c : Dev nD) : Arr 128 64 := V m c main_v49
abbrev b2Arr (c : Dev nD) : Arr 1 64 := V m c main_v52
abbrev w3Arr (c : Dev nD) : Arr 64 1 := V m c main_v50
abbrev b3Arr (c : Dev nD) : Arr 1 1 := V m c main_v53

/-- The result as one function of the arrays the region finds. -/
abbrev result (c : Dev nD) : Arr 131072 2 :=
  G (embArr m c) (wideArr m c) (w1Arr m c) (b1Arr m c) (w2Arr m c) (b2Arr m c) (w3Arr m c) (b3Arr m c)

/-- The embeddings' block at point `t` is rows `2048 t …` of the array. -/
theorem emb_blk (c : Dev nD) (t : Fin cfg0.N) (y : Fin 2048) (k : Fin 256) (r : Fin 131072) (hr : r.val = t.val * 2048 + y.val) :
    (iblk m c 0 t : Vec Ideal S2048x256 .f32) (ix2 y k) = embArr m c (ix2 r k) := by
  obtain ⟨e0, e1, -⟩ := idx_facts t
  unfold iblk
  rw [View.read_apply]
  show V m c main_v18 _ = V m c main_v18 _
  congr 1
  funext a
  apply Fin.ext
  match a with
  | ⟨0, _⟩ => show win0_0.index t (0 : Fin 2) * 2048 + 1 * y.val = r.val; omega
  | ⟨1, _⟩ => show win0_0.index t (1 : Fin 2) * 256 + 1 * k.val = k.val; omega

/-- The wide terms' block at point `t` is rows `2048 t …` of the array. -/
theorem wide_blk (c : Dev nD) (t : Fin cfg0.N) (y : Fin 2048) (r : Fin 131072) (hr : r.val = t.val * 2048 + y.val) :
    (iblk m c 1 t : Vec Ideal S2048x1 .f32) (ix2 y (0 : Fin 1)) = wideArr m c (ix2 r (0 : Fin 1)) := by
  obtain ⟨-, -, e0, e1, -⟩ := idx_facts t
  unfold iblk
  rw [View.read_apply]
  show V m c main_v47 _ = V m c main_v47 _
  congr 1
  funext a
  apply Fin.ext
  match a with
  | ⟨0, _⟩ => show win0_1.index t (0 : Fin 2) * 2048 + 1 * y.val = r.val; omega
  | ⟨1, _⟩ => show win0_1.index t (1 : Fin 2) * 1 + 1 * 0 = 0; omega

/-- The weights and biases are whole at every point: their one block is the array. -/
theorem w1_blk (c : Dev nD) (t : Fin cfg0.N) : (iblk m c 2 t : Vec Ideal S256x128 .f32) = w1Arr m c := by
  obtain ⟨-, -, -, -, e0, e1, -⟩ := idx_facts t
  funext x
  unfold iblk
  rw [View.read_apply]
  show V m c main_v48 _ = V m c main_v48 _
  congr 1
  funext a
  apply Fin.ext
  match a with
  | ⟨0, _⟩ => show win0_2.index t (0 : Fin 2) * 256 + 1 * (x 0).val = (x 0).val; omega
  | ⟨1, _⟩ => show win0_2.index t (1 : Fin 2) * 128 + 1 * (x 1).val = (x 1).val; omega

theorem b1_blk (c : Dev nD) (t : Fin cfg0.N) : (iblk m c 3 t : Vec Ideal S1x128 .f32) = b1Arr m c := by
  obtain ⟨-, -, -, -, -, -, e0, e1, -⟩ := idx_facts t
  funext x
  unfold iblk
  rw [View.read_apply]
  show V m c main_v51 _ = V m c main_v51 _
  congr 1
  funext a
  apply Fin.ext
  match a with
  | ⟨0, _⟩ => show win0_3.index t (0 : Fin 2) * 1 + 1 * (x 0).val = (x 0).val; omega
  | ⟨1, _⟩ => show win0_3.index t (1 : Fin 2) * 128 + 1 * (x 1).val = (x 1).val; omega

theorem w2_blk (c : Dev nD) (t : Fin cfg0.N) : (iblk m c 4 t : Vec Ideal S128x64 .f32) = w2Arr m c := by
  obtain ⟨-, -, -, -, -, -, -, -, e0, e1, -⟩ := idx_facts t
  funext x
  unfold iblk
  rw [View.read_apply]
  show V m c main_v49 _ = V m c main_v49 _
  congr 1
  funext a
  apply Fin.ext
  match a with
  | ⟨0, _⟩ => show win0_4.index t (0 : Fin 2) * 128 + 1 * (x 0).val = (x 0).val; omega
  | ⟨1, _⟩ => show win0_4.index t (1 : Fin 2) * 64 + 1 * (x 1).val = (x 1).val; omega

theorem b2_blk (c : Dev nD) (t : Fin cfg0.N) : (iblk m c 5 t : Vec Ideal S1x64 .f32) = b2Arr m c := by
  obtain ⟨-, -, -, -, -, -, -, -, -, -, e0, e1, -⟩ := idx_facts t
  funext x
  unfold iblk
  rw [View.read_apply]
  show V m c main_v52 _ = V m c main_v52 _
  congr 1
  funext a
  apply Fin.ext
  match a with
  | ⟨0, _⟩ => show win0_5.index t (0 : Fin 2) * 1 + 1 * (x 0).val = (x 0).val; omega
  | ⟨1, _⟩ => show win0_5.index t (1 : Fin 2) * 64 + 1 * (x 1).val = (x 1).val; omega

theorem w3_blk (c : Dev nD) (t : Fin cfg0.N) : (iblk m c 6 t : Vec Ideal S64x1 .f32) = w3Arr m c := by
  obtain ⟨-, -, -, -, -, -, -, -, -, -, -, -, e0, e1, -⟩ := idx_facts t
  funext x
  unfold iblk
  rw [View.read_apply]
  show V m c main_v50 _ = V m c main_v50 _
  congr 1
  funext a
  apply Fin.ext
  match a with
  | ⟨0, _⟩ => show win0_6.index t (0 : Fin 2) * 64 + 1 * (x 0).val = (x 0).val; omega
  | ⟨1, _⟩ => show win0_6.index t (1 : Fin 2) * 1 + 1 * (x 1).val = (x 1).val; omega

theorem b3_blk (c : Dev nD) (t : Fin cfg0.N) : (iblk m c 7 t : Vec Ideal S1x1 .f32) = b3Arr m c := by
  obtain ⟨-, -, -, -, -, -, -, -, -, -, -, -, -, -, e0, e1, -⟩ := idx_facts t
  funext x
  unfold iblk
  rw [View.read_apply]
  show V m c main_v53 _ = V m c main_v53 _
  congr 1
  funext a
  apply Fin.ext
  match a with
  | ⟨0, _⟩ => show win0_7.index t (0 : Fin 2) * 1 + 1 * (x 0).val = (x 0).val; omega
  | ⟨1, _⟩ => show win0_7.index t (1 : Fin 2) * 1 + 1 * (x 1).val = (x 1).val; omega

/-- What point `t` writes back is block `t` of `result`. -/
theorem flushed_eq (c : Dev nD) (t : Fin cfg0.N) :
    (dats m 0 c).flushed 8 t = ((cfg0.win 8).blk t).view.read (Elt Ideal) (result m c) := by
  rw [Cert.KernelIdeal.Value.flushed8]
  obtain ⟨-, -, -, -, -, -, -, -, -, -, -, -, -, -, -, -, e0, e1⟩ := idx_facts t
  funext j
  have ht : t.val < 64 := by have h := t.isLt; have hN : cfg0.N = 64 := N_0; omega
  have hj0 : ((j : S2048x2.Idx) 0).val < 2048 := (j 0).isLt
  have hj1 : ((j : S2048x2.Idx) 1).val < 2 := (j 1).isLt
  -- the array index under block index `j`
  let r : Fin 131072 := ⟨t.val * 2048 + ((j : S2048x2.Idx) 0).val, by omega⟩
  have hemb : ((cfg0.win 8).blk t).view.emb j = (ix2 r ((j : S2048x2.Idx) 1) : S131072x2.Idx) := by
    funext a
    apply Fin.ext
    match a with
    | ⟨0, _⟩ => show win0_8.index t (0 : Fin 2) * 2048 + 1 * ((j : S2048x2.Idx) 0).val = t.val * 2048 + ((j : S2048x2.Idx) 0).val; omega
    | ⟨1, _⟩ => show win0_8.index t (1 : Fin 2) * 2 + 1 * ((j : S2048x2.Idx) 1).val = ((j : S2048x2.Idx) 1).val; omega
  show out0_8 (iblk m c 0 t) (iblk m c 1 t) (iblk m c 2 t) (iblk m c 3 t) (iblk m c 4 t) (iblk m c 5 t) (iblk m c 6 t)
      (iblk m c 7 t) j = result m c (((cfg0.win 8).blk t).view.emb j)
  refine (out_apply (iblk m c 0 t) (iblk m c 1 t) (iblk m c 2 t) (iblk m c 3 t) (iblk m c 4 t) (iblk m c 5 t)
    (iblk m c 6 t) (iblk m c 7 t) j).trans ?_
  have hrow : (fun k : Fin 256 => (iblk m c 0 t : Vec Ideal S2048x256 .f32) (ix2 ((j : S2048x2.Idx) 0) k))
      = fun k => embArr m c (ix2 r k) := funext fun k => emb_blk m c t _ k r rfl
  have hw : (iblk m c 1 t : Vec Ideal S2048x1 .f32) (ix2 ((j : S2048x2.Idx) 0) (0 : Fin 1)) = wideArr m c (ix2 r (0 : Fin 1)) :=
    wide_blk m c t _ r rfl
  rw [hemb, hrow, hw, w1_blk m c t, b1_blk m c t, w2_blk m c t, b2_blk m c t, w3_blk m c t, b3_blk m c t]
  rfl

/-- The 64 blocks tile the array: row `i 0` is in block `i 0 / 2048`. -/
theorem cover (i : S131072x2.Idx) : ∃ t : Fin cfg0.N, (cfg0.win 8).flush t = true ∧ i ∈ ((cfg0.win 8).blk t).view.set := by
  have hi0 : (i 0).val < 131072 := (i 0).isLt
  have hi1 : (i 1).val < 2 := (i 1).isLt
  have hN : cfg0.N = 64 := N_0
  let t : Fin cfg0.N := ⟨(i 0).val / 2048, by rw [hN]; omega⟩
  obtain ⟨-, -, -, -, -, -, -, -, -, -, -, -, -, -, -, -, e0, e1⟩ := idx_facts t
  have ht : t.val = (i 0).val / 2048 := rfl
  refine ⟨t, flush0_8 t, ?_⟩
  show i ∈ ((View.whole main_v54).slice (win0_8.rect t)).set
  rw [View.set_slice_whole, Rect.mem_set_unit]
  intro a
  match a with
  | ⟨0, _⟩ =>
    show win0_8.index t (0 : Fin 2) * 2048 ≤ (i 0).val ∧ (i 0).val < win0_8.index t (0 : Fin 2) * 2048 + 2048
    omega
  | ⟨1, _⟩ =>
    show win0_8.index t (1 : Fin 2) * 2 ≤ (i 1).val ∧ (i 1).val < win0_8.index t (1 : Fin 2) * 2 + 2
    omega

/-- So the result array ends holding `result`. -/
theorem final (c : Dev nD) : (dats m 0 c).arrAt 8 cfg0.N = result m c :=
  (dats m 0 c).arrAt_eq_of_cover 8 (result m c) (fun t _ => flushed_eq m c t) cover

/-- The kernel's run, read: the result array at `result`, the arguments unchanged. -/
theorem run : θ_run defs (onTc (τ := τ) (main (F := Ideal))) ⟨m, fun _ => 0, ρ⟩ fun r => ∀ c : Dev nD,
      r.2.mem ((c : Thread nD τ).loc main_v54) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Cert.KernelIdeal.Value.run_blocks m ρ)

end Cert.KernelIdeal.Block

end
-- ==== Proof.HostPrefix.lean ====
/-
  The arrays the kernel's region finds are the reference's stages.

  Before its one region the kernel's host program gathers the embeddings, gathers and adds the wide terms, transposes the
  three weight matrices and lays the three biases out as one-row arrays.  The gathers, sums and transposes are the
  reference's own operations on the same arguments, term for term; the biases the reference lays out by a broadcast
  where the kernel reshapes, and entry `(0, j)` of either is entry `j` of the bias.
-/
import proofs.«168874_j23029614641371_1_alg».proof.Proof.Gen.KernelIdeal.Frame
import proofs.«168874_j23029614641371_1_alg».proof.Proof.Gen.ReferenceIdeal.Read
import Idealize.ShloMosaic.Lib.StableHlo.Run
import Idealize.ShloMosaic.Lib.Pipeline.Value

noncomputable section

namespace Cert.KernelIdeal.Host

open Cert.KernelIdeal Cert.KernelIdeal.Gen Idealize.ShloMosaic Idealize.ShloMosaic.TcCoe Idealize.SL.Sem
  Idealize.ShloMosaic.StableHlo

variable (m : (ℓ : Loc nD τ sig) → Buf (Elt Ideal) ℓ)

/-- The gathered, concatenated embeddings. -/
theorem emb_eq (c : Dev nD) :
    (V m c main_v18 : S131072x256.Idx → EReal)
      = Cert.ReferenceIdeal.Read.val_main_v18 (F := Ideal) (m ((c : Thread nD τ).loc main_arg0))
          (m ((c : Thread nD τ).loc main_arg1)) (m ((c : Thread nD τ).loc main_arg2)) := by
  dsimp only [Gen.V, Gen.hostOps0]
  after_results_simp <;> rfl

/-- The wide terms: two gathered weights and the bias, as a column. -/
theorem wide_eq (c : Dev nD) :
    (V m c main_v47 : S131072x1.Idx → EReal)
      = Cert.ReferenceIdeal.Read.val_main_v64 (F := Ideal) (m ((c : Thread nD τ).loc main_arg0))
          (m ((c : Thread nD τ).loc main_arg3)) (m ((c : Thread nD τ).loc main_arg4)) := by
  dsimp only [Gen.V, Gen.hostOps0]
  after_results_simp <;> rfl

/-- The transposed weights. -/
theorem w1_eq (c : Dev nD) :
    (V m c main_v48 : S256x128.Idx → EReal)
      = Cert.ReferenceIdeal.Read.val_main_v19 (F := Ideal) (m ((c : Thread nD τ).loc main_arg5)) := by
  dsimp only [Gen.V, Gen.hostOps0]
  after_results
  rfl

theorem w2_eq (c : Dev nD) :
    (V m c main_v49 : S128x64.Idx → EReal)
      = Cert.ReferenceIdeal.Read.val_main_v25 (F := Ideal) (m ((c : Thread nD τ).loc main_arg7)) := by
  dsimp only [Gen.V, Gen.hostOps0]
  after_results
  rfl

theorem w3_eq (c : Dev nD) :
    (V m c main_v50 : S64x1.Idx → EReal)
      = Cert.ReferenceIdeal.Read.val_main_v31 (F := Ideal) (m ((c : Thread nD τ).loc main_arg9)) := by
  dsimp only [Gen.V, Gen.hostOps0]
  after_results
  rfl

/-- The biases as one-row arrays: a reshape here, a broadcast there, the same entries. -/
theorem b1_eq (c : Dev nD) :
    (V m c main_v51 : S1x128.Idx → EReal)
      = Cert.ReferenceIdeal.Read.val_main_v21 (F := Ideal) (m ((c : Thread nD τ).loc main_arg6)) := by
  have e : (V m c main_v51 : S1x128.Idx → EReal)
      = shapeCast S1x128 (m ((c : Thread nD τ).loc main_arg6) : S128.Idx → EReal) shapeCasts_S128_S1x128 := by
    dsimp only [Gen.V, Gen.hostOps0]
    after_results
    rfl
  rw [e]
  funext i
  rw [Cert.ReferenceIdeal.Read.val_main_v21_apply]
  exact shapeCast_apply _ shapeCasts_S128_S1x128 i (Cert.ReferenceIdeal.Read.idx_main_v21 i)
    (by rewrite [Shape.rowMajor_val_one, Shape.rowMajor_val_two]
        have h0 : (i 0).val < 1 := (i 0).isLt
        show (i 1).val = (i 0).val * 128 + (i 1).val
        omega)

theorem b2_eq (c : Dev nD) :
    (V m c main_v52 : S1x64.Idx → EReal)
      = Cert.ReferenceIdeal.Read.val_main_v27 (F := Ideal) (m ((c : Thread nD τ).loc main_arg8)) := by
  have e : (V m c main_v52 : S1x64.Idx → EReal)
      = shapeCast S1x64 (m ((c : Thread nD τ).loc main_arg8) : S64.Idx → EReal) shapeCasts_S64_S1x64 := by
    dsimp only [Gen.V, Gen.hostOps0]
    after_results
    rfl
  rw [e]
  funext i
  rw [Cert.ReferenceIdeal.Read.val_main_v27_apply]
  exact shapeCast_apply _ shapeCasts_S64_S1x64 i (Cert.ReferenceIdeal.Read.idx_main_v27 i)
    (by rewrite [Shape.rowMajor_val_one, Shape.rowMajor_val_two]
        have h0 : (i 0).val < 1 := (i 0).isLt
        show (i 1).val = (i 0).val * 64 + (i 1).val
        omega)

theorem b3_eq (c : Dev nD) :
    (V m c main_v53 : S1x1.Idx → EReal)
      = Cert.ReferenceIdeal.Read.val_main_v33 (F := Ideal) (m ((c : Thread nD τ).loc main_arg10)) := by
  have e : (V m c main_v53 : S1x1.Idx → EReal)
      = shapeCast S1x1 (m ((c : Thread nD τ).loc main_arg10) : S1.Idx → EReal) shapeCasts_S1_S1x1 := by
    dsimp only [Gen.V, Gen.hostOps0]
    after_results
    rfl
  rw [e]
  funext i
  rw [Cert.ReferenceIdeal.Read.val_main_v33_apply]
  exact shapeCast_apply _ shapeCasts_S1_S1x1 i (Cert.ReferenceIdeal.Read.idx_main_v33 i)
    (by rewrite [Shape.rowMajor_val_one, Shape.rowMajor_val_two]
        have h0 : (i 0).val < 1 := (i 0).isLt
        have h1 : (i 1).val < 1 := (i 1).isLt
        show 0 = (i 0).val * 1 + (i 1).val
        omega)

end Cert.KernelIdeal.Host

end
-- ==== Proof.Cols.lean ====
/-
  Two one-column arrays set side by side, read at an entry: column 0 is the first array's row, column 1 the second's.
-/
import proofs.«168874_j23029614641371_1_alg».proof.Proof.Spec
import Idealize.ShloMosaic.Lib.Pipeline.Value

noncomputable section

namespace Cert.WideDeep

open Idealize.ShloMosaic Idealize.ShloMosaic.ValueIdx

/-- The two operands of the join as a family over the column. -/
abbrev colFam {R : Nat} (u v : (⟨2, ![R, 1]⟩ : Shape).Idx → EReal) : Fin 2 → ((⟨2, ![R, 1]⟩ : Shape).Idx → EReal) :=
  fun n => match n with | ⟨0, _⟩ => u | ⟨1, _⟩ => v

/-- Entry `(r, col)` of the two columns joined along the last axis. -/
theorem concat_cols_apply {R : Nat} (u v : (⟨2, ![R, 1]⟩ : Shape).Idx → EReal)
    (h : Shape.Concatenates (([⟨⟨2, ![R, 1]⟩, u⟩, ⟨⟨2, ![R, 1]⟩, v⟩] : List ((s : Shape) × (s.Idx → EReal))).map (·.1))
      ⟨2, ![R, 2]⟩ (1 : Fin 2))
    (r : Fin R) (col : Fin 2) :
    concatenate ⟨2, ![R, 2]⟩ (1 : Fin 2) [⟨⟨2, ![R, 1]⟩, u⟩, ⟨⟨2, ![R, 1]⟩, v⟩] h (ix2 r col)
      = if col.val = 0 then u (ix2 r (0 : Fin 1)) else v (ix2 r (0 : Fin 1)) := by
  have hc := col.isLt
  have key : concatenate ⟨2, ![R, 2]⟩ (1 : Fin 2) (List.ofFn fun n : Fin 2 =>
      (⟨⟨2, ![R, 1]⟩, colFam u v n⟩ : (s : Shape) × (s.Idx → EReal))) h (ix2 r col) = colFam u v col (ix2 r (0 : Fin 1)) :=
    concatenate_ofFn_apply (t := ⟨2, ![R, 2]⟩) (s₁ := ⟨2, ![R, 1]⟩) (1 : Fin 2) (colFam u v) h rfl 1 rfl (ix2 r col) col
      (by show col.val / 1 = col.val; omega) (ix2 r (0 : Fin 1)) (by show (0 : Nat) = col.val % 1; omega)
      (fun b hb => by match b with | ⟨0, _⟩ => rfl | ⟨1, _⟩ => exact absurd rfl hb)
  refine key.trans ?_
  match col with
  | ⟨0, _⟩ => rfl
  | ⟨1, _⟩ => rfl

end Cert.WideDeep

end
-- ==== Proof.RefRow.lean ====
/-
  The reference, row by row, at the ideal values.

  Each stage of the reference reads row `r` of the stage before it: the three `dot_general`s are sums over the contracted
  coordinate, the biases one-row arrays stretched over the rows, the logistic function spelled as a quotient.  So its
  result is the row function `G` of the gathered embeddings, the wide terms, and the transposed weights and biases.
-/
import proofs.«168874_j23029614641371_1_alg».proof.Proof.Gen.ReferenceIdeal.Read
import proofs.«168874_j23029614641371_1_alg».proof.Proof.Cols

noncomputable section

open scoped BigOperators

namespace Cert.ReferenceIdeal.Row

open Cert.ReferenceIdeal Cert.ReferenceIdeal.Read Cert.WideDeep Idealize.ShloMosaic Idealize.ShloMosaic.ValueIdx

variable (x0 : (⟨S131072x2, .i32⟩ : BufTy).Contents (Elt Ideal)) (x1 : (⟨S6040x128, .f32⟩ : BufTy).Contents (Elt Ideal))
  (x2 : (⟨S3883x128, .f32⟩ : BufTy).Contents (Elt Ideal)) (x3 : (⟨S1x9923, .f32⟩ : BufTy).Contents (Elt Ideal))
  (x4 : (⟨S1, .f32⟩ : BufTy).Contents (Elt Ideal)) (x5 : (⟨S128x256, .f32⟩ : BufTy).Contents (Elt Ideal))
  (x6 : (⟨S128, .f32⟩ : BufTy).Contents (Elt Ideal)) (x7 : (⟨S64x128, .f32⟩ : BufTy).Contents (Elt Ideal))
  (x8 : (⟨S64, .f32⟩ : BufTy).Contents (Elt Ideal)) (x9 : (⟨S1x64, .f32⟩ : BufTy).Contents (Elt Ideal))
  (x10 : (⟨S1, .f32⟩ : BufTy).Contents (Elt Ideal))

/-- The row of the gathered embeddings that row `r` of the result depends on. -/
abbrev embRow (r : Fin 131072) : Fin 256 → EReal := fun k => val_main_v18 (F := Ideal) x0 x1 x2 (ix2 r k)

/-- First hidden layer at `(r, j)`. -/
theorem v24_apply (r : Fin 131072) (j : Fin 128) :
    val_main_v24 (F := Ideal) x0 x1 x2 x5 x6 (ix2 r j)
      = hid1 (embRow x0 x1 x2 r) (val_main_v19 (F := Ideal) x5) (val_main_v21 (F := Ideal) x6) j := by
  have e1 : ∀ k : Fin 256, lidx_main_v20 (ix2 r j) k = ix2 r k := fun k => funext fun a => by
    match a with | ⟨0, _⟩ => rfl | ⟨1, _⟩ => rfl
  have e2 : ∀ k : Fin 256, ridx_main_v20 (ix2 r j) k = ix2 k j := fun k => funext fun a => by
    match a with | ⟨0, _⟩ => rfl | ⟨1, _⟩ => rfl
  have e3 : idx_main_v22 (ix2 r j) = ix2 (0 : Fin 1) j := funext fun a => by
    match a with | ⟨0, _⟩ => rfl | ⟨1, _⟩ => rfl
  rw [val_main_v24_apply, val_main_v23_apply, val_main_v20_apply, val_main_v22_apply, val_main_call0_v0_apply,
    val_main_call0_cst_apply]
  simp only [e1, e2, e3]
  rfl

/-- Second hidden layer at `(r, j)`. -/
theorem v30_apply (r : Fin 131072) (j : Fin 64) :
    val_main_v30 (F := Ideal) x0 x1 x2 x5 x6 x7 x8 (ix2 r j)
      = hid2 (embRow x0 x1 x2 r) (val_main_v19 (F := Ideal) x5) (val_main_v21 (F := Ideal) x6)
          (val_main_v25 (F := Ideal) x7) (val_main_v27 (F := Ideal) x8) j := by
  have e1 : ∀ k : Fin 128, lidx_main_v26 (ix2 r j) k = ix2 r k := fun k => funext fun a => by
    match a with | ⟨0, _⟩ => rfl | ⟨1, _⟩ => rfl
  have e2 : ∀ k : Fin 128, ridx_main_v26 (ix2 r j) k = ix2 k j := fun k => funext fun a => by
    match a with | ⟨0, _⟩ => rfl | ⟨1, _⟩ => rfl
  have e3 : idx_main_v28 (ix2 r j) = ix2 (0 : Fin 1) j := funext fun a => by
    match a with | ⟨0, _⟩ => rfl | ⟨1, _⟩ => rfl
  rw [val_main_v30_apply, val_main_v29_apply, val_main_v26_apply, val_main_v28_apply, val_main_call1_v0_apply,
    val_main_call1_cst_apply]
  simp only [e1, e2, e3, v24_apply]
  rfl

/-- The logit at row `r`: the wide term plus the last layer. -/
theorem v65_apply (r : Fin 131072) :
    val_main_v65 (F := Ideal) x0 x1 x2 x3 x4 x5 x6 x7 x8 x9 x10 (ix2 r (0 : Fin 1))
      = logit (embRow x0 x1 x2 r) (val_main_v64 (F := Ideal) x0 x3 x4 (ix2 r (0 : Fin 1))) (val_main_v19 (F := Ideal) x5)
          (val_main_v21 (F := Ideal) x6) (val_main_v25 (F := Ideal) x7) (val_main_v27 (F := Ideal) x8)
          (val_main_v31 (F := Ideal) x9) (val_main_v33 (F := Ideal) x10) := by
  have e1 : ∀ k : Fin 64, lidx_main_v32 (ix2 r (0 : Fin 1)) k = ix2 r k := fun k => funext fun a => by
    match a with | ⟨0, _⟩ => rfl | ⟨1, _⟩ => rfl
  have e2 : ∀ k : Fin 64, ridx_main_v32 (ix2 r (0 : Fin 1)) k = ix2 k (0 : Fin 1) := fun k => funext fun a => by
    match a with | ⟨0, _⟩ => rfl | ⟨1, _⟩ => rfl
  have e3 : idx_main_v34 (ix2 r (0 : Fin 1)) = ix2 (0 : Fin 1) (0 : Fin 1) := funext fun a => by
    match a with | ⟨0, _⟩ => rfl | ⟨1, _⟩ => rfl
  rw [val_main_v65_apply, val_main_v35_apply, val_main_v32_apply, val_main_v34_apply]
  simp only [e1, e2, e3, v30_apply]
  rfl

/-- The probability at row `r`: the quotient the reference spells is the logistic function of half the logit. -/
theorem v73_apply (r : Fin 131072) :
    val_main_v73 (F := Ideal) x0 x1 x2 x3 x4 x5 x6 x7 x8 x9 x10 (ix2 r (0 : Fin 1))
      = prob (logit (embRow x0 x1 x2 r) (val_main_v64 (F := Ideal) x0 x3 x4 (ix2 r (0 : Fin 1))) (val_main_v19 (F := Ideal) x5)
          (val_main_v21 (F := Ideal) x6) (val_main_v25 (F := Ideal) x7) (val_main_v27 (F := Ideal) x8)
          (val_main_v31 (F := Ideal) x9) (val_main_v33 (F := Ideal) x10)) := by
  rw [val_main_v73_apply, val_main_v72_apply, val_main_cst_11_apply, val_main_v71_apply, val_main_v70_apply,
    val_main_cst_10_apply, val_main_v69_apply, val_main_v68_apply, val_main_v67_apply, val_main_v66_apply,
    val_main_cst_apply, v65_apply]
  exact logistic_spelled _

/-- The reference's result is `G` of its own gathered embeddings, wide terms, transposed weights and biases. -/
theorem result_eq :
    val_main_v76 (F := Ideal) x0 x1 x2 x3 x4 x5 x6 x7 x8 x9 x10
      = G (val_main_v18 (F := Ideal) x0 x1 x2) (val_main_v64 (F := Ideal) x0 x3 x4) (val_main_v19 (F := Ideal) x5)
          (val_main_v21 (F := Ideal) x6) (val_main_v25 (F := Ideal) x7) (val_main_v27 (F := Ideal) x8)
          (val_main_v31 (F := Ideal) x9) (val_main_v33 (F := Ideal) x10) := by
  funext i
  obtain ⟨r, col, rfl⟩ : ∃ (r : Fin 131072) (col : Fin 2), i = ix2 r col := ⟨i 0, i 1, eq_ix2 i⟩
  unfold val_main_v76
  refine (concat_cols_apply (R := 131072) _ _ _ r col).trans ?_
  rw [val_main_v75_apply, val_main_v74_apply, val_main_cst_12_apply, v73_apply]
  rfl

end Cert.ReferenceIdeal.Row

end
-- ==== Proof.lean ====
/-
  The certificate of a wide-and-deep recommender's forward pass: a kernel that runs the three-layer network, adds the wide
  term and applies the logistic function, 2048 rows to a grid point, against the plain reference.

  Both programs first gather the two embeddings of every row and the two wide weights, by the same host operations.  The
  kernel then works block by block: a row of its result depends only on that row of the gathered arrays and on the whole
  weights, so every block it writes is a block of one whole-array function (Proof/Spec.lean `G`: Proof/KernelRow.lean for
  the arithmetic at a row, Proof/KernelBlock.lean for the blocks and their cover).  The reference computes the same
  function stage by stage (Proof/RefRow.lean): its `dot_general`s and the kernel's matrix products are the same sums over
  the contracted coordinate, its transposes are the kernel's host transposes, its quotient `1 / (1 + e^(-x))` is the
  kernel's logistic function, and the changes of float format in the kernel are the identity on the extended reals.  No
  law beyond these readings is used, so finiteness of the inputs is never opened.
  The arrays the kernel's region finds are the reference's stages of the same arguments (Proof/HostPrefix.lean).
-/
import proofs.«168874_j23029614641371_1_alg».proof.Defs
import proofs.«168874_j23029614641371_1_alg».proof.Proof.Gen.Kernel
import proofs.«168874_j23029614641371_1_alg».proof.Proof.Gen.Kernel.Skeleton
import proofs.«168874_j23029614641371_1_alg».proof.Proof.Gen.Kernel.Launch
import proofs.«168874_j23029614641371_1_alg».proof.Proof.Gen.Kernel.Points
import proofs.«168874_j23029614641371_1_alg».proof.Proof.Gen.Kernel.Frame
import proofs.«168874_j23029614641371_1_alg».proof.Proof.Gen.KernelIdeal
import proofs.«168874_j23029614641371_1_alg».proof.Proof.Gen.KernelIdeal.Skeleton
import proofs.«168874_j23029614641371_1_alg».proof.Proof.Gen.KernelIdeal.Launch
import proofs.«168874_j23029614641371_1_alg».proof.Proof.Gen.KernelIdeal.Points
import proofs.«168874_j23029614641371_1_alg».proof.Proof.Gen.KernelIdeal.Frame
import proofs.«168874_j23029614641371_1_alg».proof.Proof.Gen.ReferenceIdeal
import proofs.«168874_j23029614641371_1_alg».proof.Proof.Gen.Pre_finite_inputs
import proofs.«168874_j23029614641371_1_alg».proof.Proof.Gen.KernelIdeal.Value
import proofs.«168874_j23029614641371_1_alg».proof.Proof.Gen.ReferenceIdeal.Run
import proofs.«168874_j23029614641371_1_alg».proof.Proof.Gen.ReferenceIdeal.Read
import proofs.«168874_j23029614641371_1_alg».proof.Proof.KernelBlock
import proofs.«168874_j23029614641371_1_alg».proof.Proof.HostPrefix
import proofs.«168874_j23029614641371_1_alg».proof.Proof.RefRow
import Idealize.ShloMosaic.Adequacy
import Idealize.ShloMosaic.Init

noncomputable section

namespace Cert.Proof

open Idealize.ShloMosaic Idealize.ShloMosaic.TcCoe Idealize.SL.Sem

/-- Both idealized programs, from memories that agree on the arguments, end with the result array at the row function
    of the gathered embeddings, the wide terms, the transposed weights and the biases. -/
theorem algebraic : Cert.algebraic_KernelIdeal_ReferenceIdeal := by
  intro m ρ m' ρ' _ hagree
  refine ⟨fun c => Cert.KernelIdeal.Block.result m c, Cert.KernelIdeal.Block.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  rw [Cert.ReferenceIdeal.Read.val_main_v76_eq, Cert.ReferenceIdeal.Row.result_eq, h0, h1, h2, h3, h4, h5, h6, h7, h8,
    h9, h10]
  show _ = Cert.WideDeep.G (Cert.KernelIdeal.Gen.V m c Cert.KernelIdeal.main_v18)
    (Cert.KernelIdeal.Gen.V m c Cert.KernelIdeal.main_v47) (Cert.KernelIdeal.Gen.V m c Cert.KernelIdeal.main_v48)
    (Cert.KernelIdeal.Gen.V m c Cert.KernelIdeal.main_v51) (Cert.KernelIdeal.Gen.V m c Cert.KernelIdeal.main_v49)
    (Cert.KernelIdeal.Gen.V m c Cert.KernelIdeal.main_v52) (Cert.KernelIdeal.Gen.V m c Cert.KernelIdeal.main_v50)
    (Cert.KernelIdeal.Gen.V m c Cert.KernelIdeal.main_v53)
  rw [Cert.KernelIdeal.Host.emb_eq m c, Cert.KernelIdeal.Host.wide_eq m c, Cert.KernelIdeal.Host.w1_eq m c,
    Cert.KernelIdeal.Host.b1_eq m c, Cert.KernelIdeal.Host.w2_eq m c, Cert.KernelIdeal.Host.b2_eq m c,
    Cert.KernelIdeal.Host.w3_eq m c, Cert.KernelIdeal.Host.b3_eq m c]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2)
    (Cert.ReferenceIdeal.Value.run (F := Ideal) m ρ),
  trivial,
  algebraic⟩

end Cert.Proof

end
